-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x64 : Shape := ⟨2, ![2048, 64]⟩
abbrev S64 : Shape := ⟨1, ![64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x2048 .f32) (main_arg1 : FVec F S2048x64 .f32) (main_arg2 : FVec F S64 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x2048 : Shape := ⟨2, ![16384, 2048]⟩
abbrev S2048x64 : Shape := ⟨2, ![2048, 64]⟩
abbrev S64 : Shape := ⟨1, ![64]⟩
abbrev S64x2048 : Shape := ⟨2, ![64, 2048]⟩
abbrev S1x64 : Shape := ⟨2, ![1, 64]⟩
abbrev S64x16384 : Shape := ⟨2, ![64, 16384]⟩
abbrev S1024x2048 : Shape := ⟨2, ![1024, 2048]⟩
abbrev S64x1024 : Shape := ⟨2, ![64, 1024]⟩
abbrev S64x1 : Shape := ⟨2, ![64, 1]⟩
abbrev S1024 : Shape := ⟨1, ![1024]⟩
abbrev S1x1024 : Shape := ⟨2, ![1, 1024]⟩
abbrev S16384x64 : Shape := ⟨2, ![16384, 64]⟩

abbrev nBuf : Space → Nat
  | .hbm => 7
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x64, .f32⟩
  | .hbm, ⟨2, _⟩ => ⟨S64, .f32⟩
  | .hbm, ⟨3, _⟩ => ⟨S64x2048, .f32⟩
  | .hbm, ⟨4, _⟩ => ⟨S1x64, .f32⟩
  | .hbm, ⟨5, _⟩ => ⟨S64x16384, .f32⟩
  | .hbm, ⟨6, _⟩ => ⟨S16384x64, .f32⟩
  | .local _ .vmem, ⟨0, _⟩ => ⟨S1024x2048, .f32⟩
  | .local _ .vmem, ⟨1, _⟩ => ⟨S1024x2048, .f32⟩
  | .local _ .vmem, ⟨2, _⟩ => ⟨S64x2048, .f32⟩
  | .local _ .vmem, ⟨3, _⟩ => ⟨S1x64, .f32⟩
  | .local _ .vmem, ⟨4, _⟩ => ⟨S64x1024, .f32⟩
  | .local _ .vmem, ⟨5, _⟩ => ⟨S64x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S2048x64_S64x2048_1_0 : S2048x64.Transposes [1, 0] S64x2048
  shapeCasts_S64_S1x64 : S64.ShapeCasts S1x64
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S1x64_p1_0_S64x1 : S1x64.Transposes [1, 0] S64x1
  broadcasts_S64x1_S64x1024 : S64x1.Broadcasts S64x1024
  reduces_S64x1024_S1024 : S64x1024.Reduces [0] S1024
  shapeCasts_S1024_S1x1024 : S1024.ShapeCasts S1x1024
  broadcasts_S1x1024_S64x1024 : S1x1024.Broadcasts S64x1024
  inb_S64x1024_S64x1024_0_0 : ∀ a, (![0, 0] : Fin 2 → Nat) a + S64x1024.size a ≤ S64x1024.size a
  h_S64x1024 : 0 < S64x1024.numel
  transposes_S64x16384_S16384x64_1_0 : S64x16384.Transposes [1, 0] S16384x64
  dot_S64x2048_S1024x2048_S64x1024_1_1_0_0_n_n_wf : DotDims.WF S64x2048 S1024x2048 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x16384.size a
  hwx0_3 : ∀ i : grid0.Coords, EltTy.bits .f32 = 32 ∨ (Rect.block (s := S64x16384) S64x1024.size (cc0_transform_3 i) (hinb0_3 i)).WholeWords (EltTy.packing .f32)

variable [Facts₀]

def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x64 : Shape := ⟨2, ![2048, 64]⟩
abbrev S64 : Shape := ⟨1, ![64]⟩
abbrev S16384x64 : Shape := ⟨2, ![16384, 64]⟩
abbrev S1x64 : Shape := ⟨2, ![1, 64]⟩
abbrev S_ : Shape := ⟨0, ![]⟩
abbrev S16384 : Shape := ⟨1, ![16384]⟩
abbrev S16384x1 : Shape := ⟨2, ![16384, 1]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x64, .f32⟩
  | .hbm, ⟨2, _⟩ => ⟨S64, .f32⟩
  | .hbm, ⟨3, _⟩ => ⟨S16384x64, .f32⟩
  | .hbm, ⟨4, _⟩ => ⟨S1x64, .f32⟩
  | .hbm, ⟨5, _⟩ => ⟨S16384x64, .f32⟩
  | .hbm, ⟨6, _⟩ => ⟨S16384x64, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S16384x1, .f32⟩
  | .hbm, ⟨13, _⟩ => ⟨S16384x64, .f32⟩
  | .hbm, ⟨14, _⟩ => ⟨S16384x64, .f32⟩
  | .hbm, ⟨15, _⟩ => ⟨S16384x64, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S16384x64, .f32⟩
  | .hbm, ⟨20, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  dot_S16384x2048_S2048x64_S16384x64_1_0_0_1_n_n_wf : DotDims.WF S16384x2048 S2048x64 S16384x64 [1] [0] [0] [1] [] []

variable [Facts₀]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf

class Facts : Prop extends Facts₀ where

variable [Facts]
-- ==== Proof.GateSpec.lean ====
/-
  The mixture-of-experts gate, as ONE function of its three argument arrays over the extended reals.

  For a token `t` and an expert `e` the logit is `Σ_k x[t,k] · W[k,e] + b[e]`. A token's row of 64 logits is
  turned into shares that sum to one: subtract the row's largest logit (the fold of `max` over the 64
  experts, started from the f32 pattern of −∞), exponentiate, and divide each weight by the sum of the 64
  weights. The result at `(t, e)` is expert `e`'s share of token `t`.

  Both programs of this certificate compute exactly this; they differ in the order of the two factors of a
  product, in how the array is cut into blocks, in which axis the experts lie on, and in one more `max` with −∞
  that the reference takes. The last is the only place a float pattern is ever evaluated: `max_negInf`.
-/
import Idealize.ShloMosaic.PureOps.Ideal
import Idealize.ShloMosaic.PureOps.Ideal.Laws
import Idealize.ShloMosaic.Lib.ValueIdx

noncomputable section

namespace Cert.Gate

open Idealize.ShloMosaic Idealize.ShloMosaic.ValueIdx

/-- The f32 pattern of −∞: the value both programs start a row's maximum from. -/
abbrev negInf : EReal := Ideal.ofBits .f32 0xFF800000#32

/-- It is the bottom of the extended reals, so a maximum with it changes nothing. -/
theorem max_negInf (y : EReal) : max negInf y = y := by
  show max (Ideal.ofBits .f32 0xFF800000#32) y = y
  simp [Ideal.ofBits, Ideal.ieee]

/-- Token `t`'s logit for expert `e`: the inner product of row `t` of `x` with column `e` of `W`, plus the bias. -/
def logit (x : (⟨2, ![16384, 2048]⟩ : Shape).Idx → EReal) (W : (⟨2, ![2048, 64]⟩ : Shape).Idx → EReal)
    (b : (⟨1, ![64]⟩ : Shape).Idx → EReal) (t : Fin 16384) (e : Fin 64) : EReal :=
  (∑ k : Fin 2048, x (ix2 t k) * W (ix2 k e)) + b (ix1 e)

/-- The largest of a row of 64 logits, as a fold of `max` from −∞ (in any order: `max` commutes and associates). -/
def peak (L : Fin 64 → EReal) : EReal := (Finset.univ : Finset (Fin 64)).fold max negInf L

/-- An expert's unnormalised weight in a row: the exponential of its logit less the row's largest. -/
def weight (L : Fin 64 → EReal) (e : Fin 64) : EReal := Ideal.exp (L e - peak L)

/-- An expert's share of a row: its weight over the sum of the row's 64 weights. -/
def share (L : Fin 64 → EReal) (e : Fin 64) : EReal := Ideal.div (weight L e) (∑ e' : Fin 64, weight L e')

/-- The gate: at `(t, e)`, expert `e`'s share of token `t`'s row of logits. -/
def gate (x : (⟨2, ![16384, 2048]⟩ : Shape).Idx → EReal) (W : (⟨2, ![2048, 64]⟩ : Shape).Idx → EReal)
    (b : (⟨1, ![64]⟩ : Shape).Idx → EReal) : (⟨2, ![16384, 64]⟩ : Shape).Idx → EReal :=
  fun i => share (logit x W b (i 0)) (i 1)

/-- A row of logits enters `share` only through its values: two rows equal expert by expert have equal shares. -/
theorem share_congr {L L' : Fin 64 → EReal} (h : ∀ e, L e = L' e) (e : Fin 64) : share L e = share L' e := by
  rw [show L = L' from funext h]

end Cert.Gate

end
-- ==== Proof.RefValue.lean ====
/-
  The reference computes the gate.

  Read one operation at a time, the reference's result at `(t, e)` is
  `exp (ℓ t e − max (−∞) (max_e' ℓ t e')) / (0 + Σ_e' exp (ℓ t e' − …))` with `ℓ t e = Σ_k x[t,k] · W[k,e] + b[e]`:
  the gate of `Cert.Gate`, once the row maximum is written as the fold over the 64 experts, the extra maximum with
  −∞ is dropped (`max_negInf`) and the sum's zero seed is added away.
-/
import proofs.«161477_g64424509440698_cont_sun_c4_507_30_alg».proof.Proof.Gen.ReferenceIdeal.Read
import proofs.«161477_g64424509440698_cont_sun_c4_507_30_alg».proof.Proof.GateSpec

noncomputable section

namespace Cert.ReferenceIdeal.RefValue

open Cert.ReferenceIdeal Cert.ReferenceIdeal.Gen Cert.ReferenceIdeal.Read Idealize.ShloMosaic Idealize.ShloMosaic.ValueIdx
open Cert.Gate

variable (x : (⟨S16384x2048, .f32⟩ : BufTy).Contents (Elt Ideal)) (W : (⟨S2048x64, .f32⟩ : BufTy).Contents (Elt Ideal))
  (b : (⟨S64, .f32⟩ : BufTy).Contents (Elt Ideal))

/-- The sum of the product and the broadcast bias, at `(t, e)`, is the logit. -/
theorem logits_apply (j : S16384x64.Idx) : val_main_v3 (F := Ideal) x W b j = logit x W b (j 0) (j 1) := by
  rw [val_main_v3_apply, val_main_v0_apply, val_main_v2_apply, val_main_v1_apply]
  have el : ∀ k : Fin 2048, lidx_main_v0 j k = ix2 (j 0) k := fun k =>
    funext fun a => by match a with | ⟨0, _⟩ => rfl | ⟨1, _⟩ => rfl
  have er : ∀ k : Fin 2048, ridx_main_v0 j k = ix2 k (j 1) := fun k =>
    funext fun a => by match a with | ⟨0, _⟩ => rfl | ⟨1, _⟩ => rfl
  have eb : idx_main_v1 (idx_main_v2 j) = ix1 (j 1) :=
    funext fun a => by match a with | ⟨0, _⟩ => rfl
  simp only [el, er, eb]
  rfl

/-- The witness, at the literal shapes, that dropping axis 1 of a 16384 × 64 index leaves a 16384 index: it names the
    index with the expert coordinate inserted. -/
theorem dropsExperts : S16384x64.Reduces [1] S16384 := by decide

/-- Row `t` with expert `k` inserted is `(t, k)`. -/
theorem lift_eq (r : S16384.Idx) (k : Fin 64) : dropsExperts.lift r k = (ix2 (r 0 : Fin 16384) k : S16384x64.Idx) :=
  funext fun a => Fin.ext (by match a with | ⟨0, _⟩ => rfl | ⟨1, _⟩ => rfl)

/-- The reference's row maximum — its reduce over the experts, then one more maximum with −∞ — is the peak of the row. -/
theorem rowmax_apply (r : S16384.Idx) : val_main_v6 (F := Ideal) x W b r = peak (logit x W b (r 0)) := by
  rw [val_main_v6_apply, val_main_v5_apply, val_main_cst_0_apply]
  show max negInf (val_main_v4 (F := Ideal) x W b r) = _
  rw [max_negInf]
  unfold val_main_v4
  rw [Host.reduce_eq_fold_single FloatOps.maximumf _ _ reducesTo_S16384x64_S16384_d1 dropsExperts h_S_ r]
  show (Finset.univ : Finset (Fin 64)).fold max negInf (val_main_v3 (F := Ideal) x W b ∘ dropsExperts.lift r) = _
  unfold peak
  refine congrArg (Finset.fold max negInf · Finset.univ) (funext fun (k : Fin 64) => ?_)
  show val_main_v3 (F := Ideal) x W b (dropsExperts.lift r k) = _
  rw [lift_eq]
  exact logits_apply x W b _

/-- The exponentials, at `(t, e)`, are the weights. -/
theorem weights_apply (i : S16384x64.Idx) : val_main_v10 (F := Ideal) x W b i = weight (logit x W b (i 0)) (i 1) := by
  rw [val_main_v10_apply, val_main_v9_apply, val_main_v8_apply, val_main_v7_apply, rowmax_apply, logits_apply]
  rfl

/-- The reference's result is the gate of its three arguments. -/
theorem result_eq : val_main_v14 (F := Ideal) x W b = gate x W b := by
  funext i
  rw [val_main_v14_apply, val_main_v13_apply, val_main_v12_apply, val_main_v11_apply, val_main_cst_1_apply, weights_apply]
  show Ideal.div _ (Ideal.ofBits .f32 0x00000000#32 + _) = _
  rw [Ideal.ofBits_zero_f32, zero_add]
  unfold gate share
  refine congrArg (Ideal.div _) (Finset.sum_congr rfl fun k _ => ?_)
  rw [weights_apply]
  rfl

end Cert.ReferenceIdeal.RefValue

end
-- ==== Proof.BodyValue.lean ====
/-
  What the kernel body computes from the three blocks it loads, read at an index.

  The body holds the whole transposed weight matrix `wt` (64 × 2048), one block `xb` of 1024 tokens (1024 × 2048)
  and the bias as a row `b2` (1 × 64). Experts lie along the rows of its 64 × 1024 result, tokens along the
  columns. At `(e, t)` the product into a zero accumulator is `Σ_k wt[e,k] · xb[t,k]` (the change to bf16 is the
  identity on the extended reals), the bias row turned into a column and spread over the tokens adds `b2[0,e]`, the
  maximum and the sum over axis 0 run over the 64 experts of column `t`, and each is spread back down the column. So
  column `t` of the result is the row of shares of the 64 logits `Σ_k wt[e,k] · xb[t,k] + b2[0,e]`.
-/
import proofs.«161477_g64424509440698_cont_sun_c4_507_30_alg».proof.Proof.Gen.KernelIdeal.Skeleton
import proofs.«161477_g64424509440698_cont_sun_c4_507_30_alg».proof.Proof.GateSpec
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen Idealize.ShloMosaic Idealize.ShloMosaic.ValueIdx
open Cert.Gate

/-! ## The product -/

theorem lhs_axis0 (i : S64x1024.Idx) (q : dot_S64x2048_S1024x2048_S64x1024_1_1_0_0_n_n.contr.Idx) :
    (dot_S64x2048_S1024x2048_S64x1024_1_1_0_0_n_n.lhsIdx i q 0).val = (i 0).val := by
  unfold DotDims.lhsIdx
  rw [dif_neg (show ¬(0 : Fin S64x2048.rank) ∈ dot_S64x2048_S1024x2048_S64x1024_1_1_0_0_n_n.lhsBatch by decide), dif_pos (show (0 : Fin S64x2048.rank) ∈ dot_S64x2048_S1024x2048_S64x1024_1_1_0_0_n_n.lhsNonContracting by decide)]
  rfl
theorem lhs_axis1 (i : S64x1024.Idx) (q : dot_S64x2048_S1024x2048_S64x1024_1_1_0_0_n_n.contr.Idx) :
    (dot_S64x2048_S1024x2048_S64x1024_1_1_0_0_n_n.lhsIdx i q 1).val = (q ⟨0, by decide⟩).val :=
  dot_S64x2048_S1024x2048_S64x1024_1_1_0_0_n_n.lhsIdx_val_of_single rfl i q
theorem rhs_axis0 (i : S64x1024.Idx) (q : dot_S64x2048_S1024x2048_S64x1024_1_1_0_0_n_n.contr.Idx) :
    (dot_S64x2048_S1024x2048_S64x1024_1_1_0_0_n_n.rhsIdx i q 0).val = (i 1).val := by
  unfold DotDims.rhsIdx
  rw [dif_neg (show ¬(0 : Fin S1024x2048.rank) ∈ dot_S64x2048_S1024x2048_S64x1024_1_1_0_0_n_n.rhsBatch by decide), dif_pos (show (0 : Fin S1024x2048.rank) ∈ dot_S64x2048_S1024x2048_S64x1024_1_1_0_0_n_n.rhsNonContracting by decide)]
  rfl
theorem rhs_axis1 (i : S64x1024.Idx) (q : dot_S64x2048_S1024x2048_S64x1024_1_1_0_0_n_n.contr.Idx) :
    (dot_S64x2048_S1024x2048_S64x1024_1_1_0_0_n_n.rhsIdx i q 1).val = (q ⟨0, by decide⟩).val :=
  dot_S64x2048_S1024x2048_S64x1024_1_1_0_0_n_n.rhsIdx_val_of_single rfl i q

/-- Both operands are contracted along their second axis: at `(e, t)` the product into the zero accumulator is the inner
    product of row `e` of the left operand with row `t` of the right one. -/
theorem product_apply (l : FVec Ideal S64x2048 .bf16) (r : FVec Ideal S1024x2048 .bf16) (e : Fin 64) (t : Fin 1024) :
    matmul dot_S64x2048_S1024x2048_S64x1024_1_1_0_0_n_n none l r (constant (F := Ideal) S64x1024 .f32 0x00000000#32) (ix2 e t)
      = ∑ k : Fin 2048, l (ix2 e k) * r (ix2 t k) := by
  simp only [matmul]
  rw [Ideal.matmul_constant_zero_apply, ← Equiv.sum_comp (contrEquiv1 dot_S64x2048_S1024x2048_S64x1024_1_1_0_0_n_n 2048 rfl rfl).symm]
  refine Finset.sum_congr rfl fun k _ => ?_
  have hk := contrEquiv1_symm_val dot_S64x2048_S1024x2048_S64x1024_1_1_0_0_n_n 2048 rfl rfl k
  have el : dot_S64x2048_S1024x2048_S64x1024_1_1_0_0_n_n.lhsIdx (ix2 e t) ((contrEquiv1 dot_S64x2048_S1024x2048_S64x1024_1_1_0_0_n_n 2048 rfl rfl).symm k) = ix2 e k := funext fun a => Fin.ext (by
    match a with
    | ⟨0, _⟩ => exact lhs_axis0 _ _
    | ⟨1, _⟩ => exact (lhs_axis1 _ _).trans hk)
  have er : dot_S64x2048_S1024x2048_S64x1024_1_1_0_0_n_n.rhsIdx (ix2 e t) ((contrEquiv1 dot_S64x2048_S1024x2048_S64x1024_1_1_0_0_n_n 2048 rfl rfl).symm k) = ix2 t k := funext fun a => Fin.ext (by
    match a with
    | ⟨0, _⟩ => exact rhs_axis0 _ _
    | ⟨1, _⟩ => exact (rhs_axis1 _ _).trans hk)
  rw [el, er]

/-! ## The layout operations -/

/-- The bias row turned into a column and spread over the tokens reads, at `(e, t)`, the row's entry `e`. -/
theorem biasColumn_apply (b2 : FVec Ideal S1x64 .f32) (e : Fin 64) (t : Fin 1024) :
    broadcastTo S64x1024 (transpose S64x1 [1, 0] b2 transposes_S1x64_p1_0_S64x1) broadcasts_S64x1_S64x1024 (ix2 e t)
      = b2 (ix2 0 e) := by
  rw [broadcastTo_apply _ broadcasts_S64x1_S64x1024 (ix2 e t) (ix2 e 0) (fun a => match a with
    | ⟨0, _⟩ => by show e.val = if (64 : Nat) = 1 then 0 else e.val; rw [if_neg (by decide)]
    | ⟨1, _⟩ => by show 0 = if (1 : Nat) = 1 then 0 else t.val; rw [if_pos rfl])]
  exact transpose_apply [1, 0] b2 transposes_S1x64_p1_0_S64x1 (ix2 e 0) (ix2 0 e) (fun b => match b with
    | ⟨0, _⟩ => rfl
    | ⟨1, _⟩ => rfl)

/-- A vector over the 1024 tokens, given a leading unit axis and spread down the 64 experts, reads at `(e, t)` its entry `t`. -/
theorem spread_apply (v : FVec Ideal S1024 .f32) (e : Fin 64) (t : Fin 1024) :
    broadcastTo S64x1024 (shapeCast S1x1024 v shapeCasts_S1024_S1x1024) broadcasts_S1x1024_S64x1024 (ix2 e t) = v (ix1 t) := by
  rw [broadcastTo_apply _ broadcasts_S1x1024_S64x1024 (ix2 e t) (ix2 0 t) (fun a => match a with
    | ⟨0, _⟩ => by show 0 = if (1 : Nat) = 1 then 0 else e.val; rw [if_pos rfl]
    | ⟨1, _⟩ => by show t.val = if (1024 : Nat) = 1 then 0 else t.val; rw [if_neg (by decide)])]
  refine (shapeCast_addUnit_apply ![1024] v shapeCasts_S1024_S1x1024 (ix2 0 t)).trans ?_
  exact congrArg v (funext fun a => by match a with | ⟨0, _⟩ => rfl)

/-! ## The two reductions over the experts -/

/-- Column `t` with expert `k` inserted is `(k, t)`. -/
theorem lift_eq (t : Fin 1024) (k : Fin 64) :
    reduces_S64x1024_S1024.lift (ix1 t) k = (ix2 k t : S64x1024.Idx) :=
  funext fun a => Fin.ext (by match a with | ⟨0, _⟩ => rfl | ⟨1, _⟩ => rfl)

/-- The maximum over axis 0 from the −∞ pattern, at token `t`, is the peak of column `t`. -/
theorem columnMax_apply (L : FVec Ideal S64x1024 .f32) (hφ : FKind.Formats .f32)
    (hacc : (0xFF800000#32 : BitVec 32) = FKind.maximumf.neutral .f32 hφ) (t : Fin 1024) :
    multiReduction .maximumf [0] S1024 L 0xFF800000#32 reduces_S64x1024_S1024 hφ hacc (ix1 t)
      = peak (fun e => L (ix2 e t)) := by
  refine (Ideal.multiReduction_maximumf_single L _ reduces_S64x1024_S1024 hφ hacc (ix1 t)).trans ?_
  show (Finset.univ : Finset (Fin 64)).fold max negInf (L ∘ reduces_S64x1024_S1024.lift (ix1 t)) = _
  unfold peak
  refine congrArg (Finset.fold max negInf · Finset.univ) (funext fun (k : Fin 64) => ?_)
  show L (reduces_S64x1024_S1024.lift (ix1 t) k) = L (ix2 k t)
  rw [lift_eq]

/-- The sum over axis 0 from the zero pattern, at token `t`, is the sum of column `t`. -/
theorem columnSum_apply (E : FVec Ideal S64x1024 .f32) (hφ : FKind.Formats .f32)
    (hacc : (0x00000000#32 : BitVec 32) = FKind.add.neutral .f32 hφ) (t : Fin 1024) :
    multiReduction .add [0] S1024 E 0x00000000#32 reduces_S64x1024_S1024 hφ hacc (ix1 t)
      = ∑ k : Fin 64, E (ix2 k t) := by
  refine (Ideal.multiReduction_add_single E _ reduces_S64x1024_S1024 hφ hacc (ix1 t)).trans ?_
  show ∑ k : Fin 64, E (reduces_S64x1024_S1024.lift (ix1 t) k) = _
  exact Finset.sum_congr rfl fun k _ => by rw [lift_eq]

/-! ## The body's stages, and its payload at an index -/

/-- Token `t`'s logit for expert `e`, from the blocks the body loads. -/
def blockLogit (wt : FVec Ideal S64x2048 .f32) (xb : FVec Ideal S1024x2048 .f32) (b2 : FVec Ideal S1x64 .f32) (t : Fin 1024) (e : Fin 64) : EReal :=
  (∑ k : Fin 2048, wt (ix2 e k) * xb (ix2 t k)) + b2 (ix2 0 e)

/-- The body's logits: the product plus the bias column. -/
def logits (wt : FVec Ideal S64x2048 .f32) (xb : FVec Ideal S1024x2048 .f32) (b2 : FVec Ideal S1x64 .f32) : FVec Ideal S64x1024 .f32 :=
  addf (matmul dot_S64x2048_S1024x2048_S64x1024_1_1_0_0_n_n none
      (truncf .bf16 (shapeCast S64x2048 wt shapeCasts_S64x2048_S64x2048) bitsLt_bf16_f32) (truncf .bf16 xb bitsLt_bf16_f32)
      (constant (F := Ideal) S64x1024 .f32 0x00000000#32))
    (broadcastTo S64x1024 (transpose S64x1 [1, 0] (shapeCast S1x64 b2 shapeCasts_S1x64_S1x64) transposes_S1x64_p1_0_S64x1) broadcasts_S64x1_S64x1024)

theorem logits_apply (wt : FVec Ideal S64x2048 .f32) (xb : FVec Ideal S1024x2048 .f32) (b2 : FVec Ideal S1x64 .f32) (e : Fin 64) (t : Fin 1024) :
    logits wt xb b2 (ix2 e t) = blockLogit wt xb b2 t e := by
  unfold logits blockLogit
  rw [shapeCast_self, shapeCast_self]
  show matmul dot_S64x2048_S1024x2048_S64x1024_1_1_0_0_n_n none (truncf .bf16 wt bitsLt_bf16_f32) (truncf .bf16 xb bitsLt_bf16_f32)
        (constant (F := Ideal) S64x1024 .f32 0x00000000#32) (ix2 e t)
      + broadcastTo S64x1024 (transpose S64x1 [1, 0] b2 transposes_S1x64_p1_0_S64x1) broadcasts_S64x1_S64x1024 (ix2 e t) = _
  rw [product_apply, biasColumn_apply]
  rfl

/-- The body's weights: the exponentials of the logits less their column's maximum. -/
def weights (wt : FVec Ideal S64x2048 .f32) (xb : FVec Ideal S1024x2048 .f32) (b2 : FVec Ideal S1x64 .f32) : FVec Ideal S64x1024 .f32 :=
  exp (subf (logits wt xb b2)
    (broadcastTo S64x1024 (shapeCast S1x1024
      (multiReduction .maximumf [0] S1024 (logits wt xb b2) 0xFF800000#32 reduces_S64x1024_S1024 (.inl rfl) rfl)
      shapeCasts_S1024_S1x1024) broadcasts_S1x1024_S64x1024))

theorem weights_apply (wt : FVec Ideal S64x2048 .f32) (xb : FVec Ideal S1024x2048 .f32) (b2 : FVec Ideal S1x64 .f32) (e : Fin 64) (t : Fin 1024) :
    weights wt xb b2 (ix2 e t) = weight (blockLogit wt xb b2 t) e := by
  unfold weights weight
  show Ideal.exp (logits wt xb b2 (ix2 e t) - broadcastTo S64x1024 (shapeCast S1x1024
      (multiReduction .maximumf [0] S1024 (logits wt xb b2) 0xFF800000#32 reduces_S64x1024_S1024 (.inl rfl) rfl)
      shapeCasts_S1024_S1x1024) broadcasts_S1x1024_S64x1024 (ix2 e t)) = _
  rw [spread_apply]
  have hL : (fun e' => logits wt xb b2 (ix2 e' t)) = blockLogit wt xb b2 t := funext fun e' => logits_apply wt xb b2 e' t
  refine (congrArg (fun M => Ideal.exp (logits wt xb b2 (ix2 e t) - M))
    (columnMax_apply (logits wt xb b2) (.inl rfl) rfl t)).trans ?_
  show Ideal.exp (logits wt xb b2 (ix2 e t) - peak (fun e' => logits wt xb b2 (ix2 e' t))) = _
  rw [hL, logits_apply]

/-- The payload the body stores is the weights over their column sums. -/
theorem payload_eq (wt : FVec Ideal S64x2048 .f32) (xb : FVec Ideal S1024x2048 .f32) (b2 : FVec Ideal S1x64 .f32) :
    k0_pay1 (F := Ideal) wt xb b2
      = divf (weights wt xb b2) (broadcastTo S64x1024 (shapeCast S1x1024
          (multiReduction .add [0] S1024 (weights wt xb b2) 0x00000000#32 reduces_S64x1024_S1024 (.inl rfl) rfl)
          shapeCasts_S1024_S1x1024) broadcasts_S1x1024_S64x1024) := rfl

/-- THE PAYLOAD AT AN INDEX: at `(e, t)`, expert `e`'s share of token `t`'s row of logits. -/
theorem payload_apply (wt : FVec Ideal S64x2048 .f32) (xb : FVec Ideal S1024x2048 .f32) (b2 : FVec Ideal S1x64 .f32) (e : Fin 64) (t : Fin 1024) :
    k0_pay1 (F := Ideal) wt xb b2 (ix2 e t) = share (blockLogit wt xb b2 t) e := by
  rw [payload_eq]
  show Ideal.div (weights wt xb b2 (ix2 e t)) (broadcastTo S64x1024 (shapeCast S1x1024
          (multiReduction .add [0] S1024 (weights wt xb b2) 0x00000000#32 reduces_S64x1024_S1024 (.inl rfl) rfl)
          shapeCasts_S1024_S1x1024) broadcasts_S1x1024_S64x1024 (ix2 e t)) = _
  rw [spread_apply]
  refine (congrArg (fun Z => Ideal.div (weights wt xb b2 (ix2 e t)) Z)
    (columnSum_apply (weights wt xb b2) (.inl rfl) rfl t)).trans ?_
  show Ideal.div (weights wt xb b2 (ix2 e t)) (∑ k : Fin 64, weights wt xb b2 (ix2 k t)) = _
  rw [weights_apply]
  unfold share
  exact congrArg (Ideal.div _) (Finset.sum_congr rfl fun k _ => weights_apply wt xb b2 k t)

/-- The same at any index of the block: its row coordinate is the expert, its column coordinate the token. -/
theorem payload_at (wt : FVec Ideal S64x2048 .f32) (xb : FVec Ideal S1024x2048 .f32) (b2 : FVec Ideal S1x64 .f32) (j : S64x1024.Idx) :
    k0_pay1 (F := Ideal) wt xb b2 j = share (blockLogit wt xb b2 (j 1)) (j 0) := by
  obtain ⟨e, t, rfl⟩ : ∃ (e : Fin 64) (t : Fin 1024), j = ix2 e t := ⟨j 0, j 1, eq_ix2 j⟩
  exact payload_apply wt xb b2 e t

end Cert.KernelIdeal.BodyValue

end
-- ==== Proof.ArrayValue.lean ====
/-
  From the blocks the grid points write back to the whole output array of the kernel region.

  The region runs over 16 points. Point `t` loads rows `1024·t … 1024·t + 1023` of `x` (a block of 1024 tokens),
  the whole transposed weight matrix and the whole bias row, and writes back columns `1024·t … 1024·t + 1023` of the
  64 × 16384 output. Entry `(e, s)` of the block it writes is expert `e`'s share of the logits of token
  `1024·t + s`, so the block is a block of ONE function of the arrays as the region finds them (`gateT`, below: the
  gate with experts along the rows). The 16 column blocks tile the output, so after the run the output IS that function.
-/
import proofs.«161477_g64424509440698_cont_sun_c4_507_30_alg».proof.Proof.Gen.KernelIdeal.Frame
import proofs.«161477_g64424509440698_cont_sun_c4_507_30_alg».proof.Proof.BodyValue
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx Cert.KernelIdeal.BodyValue Cert.Gate
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-! ## The arrays as the region finds them, and the blocks a point loads, at their literal types -/

abbrev xArr (c : Dev nD) : FVec Ideal S16384x2048 .f32 := V m c main_arg0
abbrev wtArr (c : Dev nD) : FVec Ideal S64x2048 .f32 := V m c main_v0
abbrev biasArr (c : Dev nD) : FVec Ideal S1x64 .f32 := V m c main_v1
abbrev xBlock (c : Dev nD) (t : Fin cfg0.N) : FVec Ideal S1024x2048 .f32 := iblk m c 0 t
abbrev wtBlock (c : Dev nD) (t : Fin cfg0.N) : FVec Ideal S64x2048 .f32 := iblk m c 1 t
abbrev biasBlock (c : Dev nD) (t : Fin cfg0.N) : FVec Ideal S1x64 .f32 := iblk m c 2 t

/-- The gate with experts along the rows, as a function of the token array, the transposed weights and the bias row:
    at `(e, s)`, expert `e`'s share of the logits `Σ_k wt[e',k] · x[s,k] + b2[0,e']` of token `s`. -/
def gateT (X : FVec Ideal S16384x2048 .f32) (Wt : FVec Ideal S64x2048 .f32) (B2 : FVec Ideal S1x64 .f32) : S64x16384.Idx → EReal :=
  fun i => share (fun e' => (∑ k : Fin 2048, Wt (ix2 e' k) * X (ix2 (i 1 : Fin 16384) k : S16384x2048.Idx)) + B2 (ix2 0 e')) (i 0 : Fin 64)

/-! ## The index maps, decided over the 16 points -/

/-- The token window's row block is the output window's column block; every other block index is zero. -/
theorem idx_facts : ∀ t : Fin cfg0.N, win0_0.index t (0 : Fin 2) = win0_3.index t (1 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) ≤ 15 :=
  (by decide +kernel : ∀ t : Fin grid0.N, _)

/-- Every one of the 16 column blocks is some point's. -/
theorem idx_onto : ∀ q : Fin 16, ∃ t : Fin cfg0.N, win0_3.index t = ![0, q.val] :=
  (by decide +kernel : ∀ q : Fin 16, ∃ t : Fin grid0.N, win0_3.index t = ![0, q.val])

/-! ## What a point loads -/

/-- The weight block is the whole transposed weight matrix. -/
theorem wt_read (c : Dev nD) (t : Fin cfg0.N) (y : S64x2048.Idx) : wtBlock m c t y = wtArr m c y := by
  obtain ⟨f0, f1, f2, f3, f4, f5, f6, f7⟩ := idx_facts t
  show V m c main_v0 (((cfg0.win 1).blk t).view.emb y) = V m c main_v0 y
  refine congrArg (V m c main_v0) (funext fun a => Fin.ext ?_)
  match a with
  | ⟨0, _⟩ => show win0_1.index t (0 : Fin 2) * 64 + 1 * (y 0).val = (y 0).val; omega
  | ⟨1, _⟩ => show win0_1.index t (1 : Fin 2) * 2048 + 1 * (y 1).val = (y 1).val; omega

/-- The bias block is the whole bias row. -/
theorem bias_read (c : Dev nD) (t : Fin cfg0.N) (y : S1x64.Idx) : biasBlock m c t y = biasArr m c y := by
  obtain ⟨f0, f1, f2, f3, f4, f5, f6, f7⟩ := idx_facts t
  show V m c main_v1 (((cfg0.win 2).blk t).view.emb y) = V m c main_v1 y
  refine congrArg (V m c main_v1) (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- Row `s` of the token block at point `t` is row `r` of the token array, where `r` is `s` rows into the block of
    1024 rows that starts at the output window's column block. -/
theorem x_read (c : Dev nD) (t : Fin cfg0.N) (s : Fin 1024) (k : Fin 2048) (r : Fin 16384)
    (hr : r.val = win0_3.index t (1 : Fin 2) * 1024 + 1 * s.val) :
    xBlock m c t (ix2 s k) = xArr m c (ix2 r k) := by
  obtain ⟨f0, f1, f2, f3, f4, f5, f6, f7⟩ := idx_facts t
  show V m c main_arg0 (((cfg0.win 0).blk t).view.emb (ix2 s k)) = V m c main_arg0 (ix2 r k)
  refine congrArg (V m c main_arg0) (funext fun a => Fin.ext ?_)
  match a with
  | ⟨0, _⟩ => show win0_0.index t (0 : Fin 2) * 1024 + 1 * s.val = r.val; omega
  | ⟨1, _⟩ => show win0_0.index t (1 : Fin 2) * 2048 + 1 * k.val = k.val; omega

/-! ## What a point writes back -/

/-- WHAT POINT `t` WRITES BACK is block `t` of `gateT` of the arrays as the region finds them. -/
theorem flushed_eq (c : Dev nD) (t : Fin cfg0.N) :
    (dats m 0 c).flushed 3 t = ((cfg0.win 3).blk t).view.read (Elt Ideal) (gateT (xArr m c) (wtArr m c) (biasArr m c)) := by
  show (cfg0.win 3).cut (grid0.coords t) ((dats m 0 c).after 3 t) = _
  rw [after0_3]
  unfold out0_3
  rw [View.canon_unit_zero zeros]
  simp only [View.ld_unit_zero (S := S64x2048) zeros, View.ld_unit_zero (S := S1024x2048) zeros, View.ld_unit_zero (S := S1x64) zeros]
  obtain ⟨f0, f1, f2, f3, f4, f5, f6, f7⟩ := idx_facts t
  funext j
  show k0_pay1 (F := Ideal) (wtBlock m c t) (xBlock m c t) (biasBlock m c t) j
    = gateT (xArr m c) (wtArr m c) (biasArr m c) (((cfg0.win 3).blk t).view.emb j)
  refine (payload_at (wtBlock m c t) (xBlock m c t) (biasBlock m c t) j).trans ?_
  have hj0 : (j 0).val < 64 := (j 0).isLt
  have hj1 : (j 1).val < 1024 := (j 1).isLt
  have he : (((cfg0.win 3).blk t).view.emb j (0 : Fin 2) : Fin 64) = (j 0 : Fin 64) := Fin.ext (by
    show win0_3.index t (0 : Fin 2) * 64 + 1 * (j 0).val = (j 0).val; omega)
  have hs : (((cfg0.win 3).blk t).view.emb j (1 : Fin 2) : Fin 16384).val = win0_3.index t (1 : Fin 2) * 1024 + 1 * (j 1).val := rfl
  unfold gateT
  rw [he]
  refine share_congr (fun e' => ?_) (j 0)
  unfold blockLogit
  rw [bias_read]
  refine congrArg (· + biasArr m c (ix2 0 e')) (Finset.sum_congr rfl fun k _ => ?_)
  rw [wt_read, x_read m c t (j 1) k _ hs]

/-! ## The array after the run -/

/-- An index of the output is in point `t`'s block iff each coordinate is in the block's range on its axis. -/
theorem mem_blk (t : Fin cfg0.N) (i : S64x16384.Idx) :
    i ∈ ((cfg0.win 3).blk t).view.set ↔ ∀ a : Fin 2, win0_3.index t a * S64x1024.size a ≤ (i a).val ∧ (i a).val < win0_3.index t a * S64x1024.size a + S64x1024.size a := by
  show i ∈ ((View.whole main_v2).slice (win0_3.rect t)).set ↔ _
  rw [View.set_slice_whole, Rect.mem_set_unit]
  exact Iff.rfl

/-- Every index of the output lies in some point's block: token `s` in the block of point `s / 1024`. -/
theorem covered (i : S64x16384.Idx) : ∃ t : Fin cfg0.N, (cfg0.win 3).flush t = true ∧ i ∈ ((cfg0.win 3).blk t).view.set := by
  have hi0 : (i 0).val < 64 := (i 0).isLt
  have hi1 : (i 1).val < 16384 := (i 1).isLt
  obtain ⟨t, ht⟩ := idx_onto ⟨(i 1).val / 1024, by omega⟩
  have q0 : win0_3.index t (0 : Fin 2) = 0 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 1024 ≤ (i 1).val ∧ (i 1).val < win0_3.index t (1 : Fin 2) * 1024 + 1024; omega

/-- THE OUTPUT ARRAY after the region: `gateT` of the arrays as the region finds them. -/
theorem final (c : Dev nD) : (dats m 0 c).arrAt 3 cfg0.N = gateT (xArr m c) (wtArr m c) (biasArr m c) :=
  (dats m 0 c).arrAt_eq_of_cover 3 (gateT (xArr m c) (wtArr m c) (biasArr m c)) (fun t _ => flushed_eq m c t) covered

end Cert.KernelIdeal.ArrayValue

end
-- ==== Proof.KernelValue.lean ====
/-
  The kernel program's result, as the gate of its three arguments.

  Before the region @main transposes `W` (2048 × 64) into the 64 × 2048 matrix the region loads whole, and views the
  bias (64) as a 1 × 64 row; `x` goes in as it is. After the region it transposes the 64 × 16384 output into the
  16384 × 64 result. So the result at `(t, e)` is the region's output at `(e, t)`: expert `e`'s share of the logits
  `Σ_k W[k,e'] · x[t,k] + b[e']` of token `t`: the gate, with the two factors of each product the other way round.
-/
import proofs.«161477_g64424509440698_cont_sun_c4_507_30_alg».proof.Proof.ArrayValue
import Idealize.ShloMosaic.Lib.StableHlo.Run

noncomputable section

namespace Cert.KernelIdeal.KernelValue

open Cert.KernelIdeal Cert.KernelIdeal.Gen Idealize.ShloMosaic Idealize.ShloMosaic.TcCoe Idealize.SL.Sem
open Idealize.ShloMosaic.ValueIdx Cert.KernelIdeal.ArrayValue Cert.Gate
open Idealize.ShloMosaic.Pipeline (Dat)

variable (m : (ℓ : Loc nD τ sig) → Buf (Elt Ideal) ℓ) (ρ : Dev nD → PrngReg)

/-! ## The host lines before the region -/

/-- The region finds `x` as launched. -/
theorem xArr_eq (c : Dev nD) : xArr m c = m ((c : Thread nD τ).loc main_arg0) := V_main_arg0 m c

/-- The matrix the region loads whole is the transpose of `W`. -/
theorem wtArr_eq (c : Dev nD) :
    wtArr m c = transpose S64x2048 [1, 0] (m ((c : Thread nD τ).loc main_arg1)) transposes_S2048x64_S64x2048_1_0 := by
  show StableHlo.after hostOps0 (fun b => m (c, b)) (Proc.devRef .tc main_v0) = _
  after_results

/-- The row the region loads whole is the bias with a leading unit axis. -/
theorem biasArr_eq (c : Dev nD) :
    biasArr m c = shapeCast S1x64 (m ((c : Thread nD τ).loc main_arg2)) shapeCasts_S64_S1x64 := by
  show StableHlo.after hostOps0 (fun b => m (c, b)) (Proc.devRef .tc main_v1) = _
  after_results
  rfl

/-- Entry `(e, k)` of the transposed matrix is entry `(k, e)` of `W`. -/
theorem wtArr_apply (c : Dev nD) (e : Fin 64) (k : Fin 2048) :
    wtArr m c (ix2 e k) = (m ((c : Thread nD τ).loc main_arg1) : S2048x64.Idx → EReal) (ix2 k e) := by
  rw [wtArr_eq]
  exact transpose_apply [1, 0] _ transposes_S2048x64_S64x2048_1_0 (ix2 e k) (ix2 k e) (fun b => match b with
    | ⟨0, _⟩ => rfl
    | ⟨1, _⟩ => rfl)

/-- Entry `(0, e)` of the bias row is entry `e` of the bias. -/
theorem biasArr_apply (c : Dev nD) (e : Fin 64) :
    biasArr m c (ix2 0 e) = (m ((c : Thread nD τ).loc main_arg2) : S64.Idx → EReal) (ix1 e) := by
  rw [biasArr_eq]
  refine (shapeCast_addUnit_apply ![64] _ shapeCasts_S64_S1x64 (ix2 0 e)).trans ?_
  exact congrArg _ (funext fun a => by match a with | ⟨0, _⟩ => rfl)

/-! ## The host line after the region -/

/-- @main's result is the transpose of the region's output array. -/
theorem tail_eq (c : Dev nD) :
    Pipeline.afterTail₀ cfgs (dats m) 0 (V0 m) [hostOps1] c main_v3
      = transpose S16384x64 [1, 0] (gateT (xArr m c) (wtArr m c) (biasArr m c)) transposes_S64x16384_S16384x64_1_0 := by
  unfold Pipeline.afterTail₀
  show StableHlo.after hostOps1 _ (Proc.devRef .tc main_v3) = _
  after_results
  refine congrArg (fun o => transpose S16384x64 [1, 0] o transposes_S64x16384_S16384x64_1_0) ?_
  exact (Pipeline.withArrays_arr spec0 launch0.win.arr_inj c _ _ 3).trans (final m c)

/-- THE RESULT: the gate of the three arguments as launched. -/
theorem result_eq (c : Dev nD) :
    Pipeline.afterTail₀ cfgs (dats m) 0 (V0 m) [hostOps1] c main_v3
      = gate (m ((c : Thread nD τ).loc main_arg0)) (m ((c : Thread nD τ).loc main_arg1)) (m ((c : Thread nD τ).loc main_arg2)) := by
  rw [tail_eq]
  funext i
  obtain ⟨t, e, rfl⟩ : ∃ (t : Fin 16384) (e : Fin 64), i = ix2 t e := ⟨i 0, i 1, eq_ix2 i⟩
  refine (transpose_apply [1, 0] _ transposes_S64x16384_S16384x64_1_0 (ix2 t e) (ix2 e t) (fun b => match b with
    | ⟨0, _⟩ => rfl
    | ⟨1, _⟩ => rfl)).trans ?_
  show share (fun e' => (∑ k : Fin 2048, wtArr m c (ix2 e' k) * xArr m c (ix2 t k)) + biasArr m c (ix2 0 e')) e = share (logit _ _ _ t) e
  refine share_congr (fun e' => ?_) e
  unfold logit
  rw [biasArr_apply, xArr_eq]
  refine congrArg (· + _) (Finset.sum_congr rfl fun k _ => ?_)
  rw [wtArr_apply]
  exact mul_comm _ _

/-! ## The run -/

/-- Every weakly fair execution of the kernel program ends with its result at the gate of its arguments, the arguments
    unchanged. -/
theorem run : θ_run defs (onTc (τ := τ) (main (F := Ideal))) ⟨m, fun _ => 0, ρ⟩ fun r => ∀ c : Dev nD,
      r.2.mem ((c.tc : Thread nD τ).loc main_v3)
        = gate (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v3 (Pipeline.mem_restRefs_of main_v3 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.lean ====
/-
  A mixture-of-experts gate: for each of 16384 tokens, the shares of 64 experts — the exponentials of the logits
  `Σ_k x[t,k] · W[k,e] + b[e]` less the row's largest, each over their sum.

  The kernel computes the shares with experts along the rows: it transposes `W`, views the bias as a row, and over
  16 blocks of 1024 tokens forms the product of the transposed weights with the block's tokens (both contracted
  along the model axis), adds the bias as a column, takes the maximum and the sum down each column, and writes a
  64 × 1024 block of the 64 × 16384 output, which @main transposes back. The reference forms `x · W + b` whole and
  normalises along each row, with one more maximum against −∞.

  Over the extended reals the two results are one function of the arguments (`Cert.Gate.gate`): a change of float
  format is the identity, a product of two extended reals commutes, a maximum over the 64 experts is the same fold
  in any order and absorbs −∞, and a sum from the zero seed is the sum. No law here needs the inputs finite, so the
  precondition is never opened.

  The three frames are the generated ones (the reference's is its generated run with the result dropped). The
  idealised kernel is the kernel's own text read over the extended reals, so there is nothing to preserve.
-/
import proofs.«161477_g64424509440698_cont_sun_c4_507_30_alg».proof.Defs
import proofs.«161477_g64424509440698_cont_sun_c4_507_30_alg».proof.Proof.Gen.Kernel
import proofs.«161477_g64424509440698_cont_sun_c4_507_30_alg».proof.Proof.Gen.Kernel.Skeleton
import proofs.«161477_g64424509440698_cont_sun_c4_507_30_alg».proof.Proof.Gen.Kernel.Launch
import proofs.«161477_g64424509440698_cont_sun_c4_507_30_alg».proof.Proof.Gen.Kernel.Points
import proofs.«161477_g64424509440698_cont_sun_c4_507_30_alg».proof.Proof.Gen.Kernel.Frame
import proofs.«161477_g64424509440698_cont_sun_c4_507_30_alg».proof.Proof.Gen.KernelIdeal
import proofs.«161477_g64424509440698_cont_sun_c4_507_30_alg».proof.Proof.Gen.KernelIdeal.Skeleton
import proofs.«161477_g64424509440698_cont_sun_c4_507_30_alg».proof.Proof.Gen.KernelIdeal.Launch
import proofs.«161477_g64424509440698_cont_sun_c4_507_30_alg».proof.Proof.Gen.KernelIdeal.Points
import proofs.«161477_g64424509440698_cont_sun_c4_507_30_alg».proof.Proof.Gen.KernelIdeal.Frame
import proofs.«161477_g64424509440698_cont_sun_c4_507_30_alg».proof.Proof.Gen.ReferenceIdeal
import proofs.«161477_g64424509440698_cont_sun_c4_507_30_alg».proof.Proof.Gen.Pre_finite_inputs
import proofs.«161477_g64424509440698_cont_sun_c4_507_30_alg».proof.Proof.Gen.ReferenceIdeal.Run
import proofs.«161477_g64424509440698_cont_sun_c4_507_30_alg».proof.Proof.Gen.ReferenceIdeal.Read
import proofs.«161477_g64424509440698_cont_sun_c4_507_30_alg».proof.Proof.GateSpec
import proofs.«161477_g64424509440698_cont_sun_c4_507_30_alg».proof.Proof.RefValue
import proofs.«161477_g64424509440698_cont_sun_c4_507_30_alg».proof.Proof.KernelValue
import Idealize.ShloMosaic.Adequacy
import Idealize.ShloMosaic.Init

noncomputable section

namespace Cert.Proof.GateClaims

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on `x`, `W` and `b`, both programs end with the gate of those three arrays. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2]

end Cert.Proof.GateClaims

namespace Cert.Proof

open Cert.Proof.GateClaims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
